-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S8192x4096 .f32) (main_arg2 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x8192x4096 : Shape := ⟨3, ![4, 8192, 4096]⟩
abbrev S8192x4096 : Shape := ⟨2, ![8192, 4096]⟩
abbrev S4096 : Shape := ⟨1, ![4096]⟩
abbrev S4x256x4096 : Shape := ⟨3, ![4, 256, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S8192x4096, .f32⟩
  | .local _ .vmem, ⟨0, _⟩ => ⟨S4x256x4096, .f32⟩
  | .local _ .vmem, ⟨1, _⟩ => ⟨S4x256x4096, .f32⟩
  | .local _ .vmem, ⟨2, _⟩ => ⟨S256x4096, .f32⟩
  | .local _ .vmem, ⟨3, _⟩ => ⟨S256x4096, .f32⟩
  | .local _ .vmem, ⟨4, _⟩ => ⟨S4096, .f32⟩
  | .local _ .vmem, ⟨5, _⟩ => ⟨S256x4096, .f32⟩
  | .local _ .vmem, ⟨6, _⟩ => ⟨S256x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x256x4096_S4x256x4096_0_0_0 : ∀ a, (![0, 0, 0] : Fin 3 → Nat) a + S4x256x4096.size a ≤ S4x256x4096.size a
  h_S4x256x4096 : 0 < S4x256x4096.numel
  reduces_S4x256x4096_S256x4096 : S4x256x4096.Reduces [0] S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4096.size a ≤ S4x8192x4096.size a
  hwx0_0 : ∀ i : grid0.Coords, EltTy.bits .f32 = 32 ∨ (Rect.block (s := S4x8192x4096) S4x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

abbrev win0_0 : Pipeline.Window sig grid0 :=
  Pipeline.Window.ofSpec (Memref.whole main_arg0) S4x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RowNorm.lean ====
/-
  The function both programs compute, entry by entry, on the extended reals.

  The four tensor-parallel shards `hs[p, r, ·]` are added into one row and the residual row `res[r, ·]` is added to it,
  giving `x[r, ·]`. The row is then divided by its root mean square: with `ss[r] = ∑ k, x[r, k]²` over the row's 4096 lanes,
  the entry at `(r, j)` is `x[r, j] · (ss[r] / 4096 + ε)^(-1/2) · w[j]`, where `4096` and `ε` are the values of the two float
  patterns both programs print (the same words on both sides, so neither is ever evaluated).

  Everything at row `r` depends on row `r` of the inputs only. `rowResult` states the result of ONE row from that row's
  data, so that a row of a block and the same row of the whole array can be compared through it: a block of 256 rows is
  that function of its own rows, and the whole array is that function of all 8192.
-/
import Idealize.ShloMosaic.PureOps.Ideal
import Idealize.ShloMosaic.Lib.ValueIdx

noncomputable section

open scoped BigOperators

namespace Cert.RowNorm

open Idealize.ShloMosaic Idealize.ShloMosaic.ValueIdx

/-- A row's entry at lane `k` after the shards are added and the residual is added to their sum: `a p k` is shard `p`'s
    entry, `b k` the residual's. -/
def summedRow (a : Fin 4 → Fin 4096 → EReal) (b : Fin 4096 → EReal) (k : Fin 4096) : EReal :=
  (∑ p : Fin 4, a p k) + b k

/-- The reciprocal root mean square of a row: its sum of squares over the 4096 lanes, divided by the value of the pattern
    `0x45800000` (4096), plus the value of the pattern `0x358637BD` (ε), under the reciprocal square root. -/
def rowScale (a : Fin 4 → Fin 4096 → EReal) (b : Fin 4096 → EReal) : EReal :=
  Ideal.rsqrt (Ideal.div (∑ k : Fin 4096, summedRow a b k * summedRow a b k) (Ideal.ofBits .f32 0x45800000#32)
    + Ideal.ofBits .f32 0x358637BD#32)

/-- One row's result at lane `j`: the summed entry, times the row's reciprocal root mean square, times the weight's lane. -/
def rowResult (a : Fin 4 → Fin 4096 → EReal) (b : Fin 4096 → EReal) (w : Fin 4096 → EReal) (j : Fin 4096) : EReal :=
  summedRow a b j * rowScale a b * w j

/-- The whole result array: at `(r, j)`, row `r`'s result at lane `j`, read from row `r` of each shard and of the
    residual and from the weight vector. -/
def G (hs : (⟨3, ![4, 8192, 4096]⟩ : Shape).Idx → EReal) (res : (⟨2, ![8192, 4096]⟩ : Shape).Idx → EReal)
    (w : (⟨1, ![4096]⟩ : Shape).Idx → EReal) : (⟨2, ![8192, 4096]⟩ : Shape).Idx → EReal :=
  fun i => rowResult (fun p k => hs (ix3 p (i 0) k)) (fun k => res (ix2 (i 0) k)) (fun k => w (ix1 k)) (i 1)

/-- Two rows with the same data have the same result. -/
theorem rowResult_congr {a a' : Fin 4 → Fin 4096 → EReal} {b b' : Fin 4096 → EReal} {w w' : Fin 4096 → EReal}
    {j j' : Fin 4096} (ha : ∀ p k, a p k = a' p k) (hb : ∀ k, b k = b' k) (hw : ∀ k, w k = w' k) (hj : j = j') :
    rowResult a b w j = rowResult a' b' w' j' := by
  have ea : a = a' := funext fun p => funext fun k => ha p k
  have eb : b = b' := funext hb
  have ew : w = w' := funext hw
  rw [ea, eb, ew, hj]

end Cert.RowNorm

end
-- ==== Proof.RefRows.lean ====
/-
  The reference's result is `RowNorm.G` of its arguments.

  The host program adds the four shards with a `reduce` over the leading axis from the initial value `0`, adds the
  residual, squares, adds each row's squares with a second `reduce` from `0`, divides by 4096, adds ε, takes the reciprocal
  square root, and multiplies the summed row by it and by the weight, each broadcast to the row's shape. Read at an entry
  `(r, j)`, every broadcast picks row `r` (of the per-row scale) or lane `j` (of the weight), each sum is the initial value
  `0` plus the sum over its axis, and what is left is `RowNorm.rowResult` of row `r`'s data at lane `j`.
-/
import proofs.«182074_j12592844112269_1_alg».proof.Proof.Gen.ReferenceIdeal.Read
import proofs.«182074_j12592844112269_1_alg».proof.Proof.RowNorm

noncomputable section

open scoped BigOperators

namespace Cert.ReferenceIdeal.RefRows

open Cert.ReferenceIdeal Cert.ReferenceIdeal.Read Idealize.ShloMosaic Idealize.ShloMosaic.ValueIdx

/-- The shard sum at `(r, k)` reads shard `p` at `(p, r, k)`. -/
theorem shard_idx (r : Fin 8192) (k : Fin 4096) (p : Fin 4) : idx_main_v0 (ix2 r k) p = ix3 p r k :=
  funext fun a => by match a with | ⟨0, _⟩ => rfl | ⟨1, _⟩ => rfl | ⟨2, _⟩ => rfl

/-- The per-row scale broadcast to `(r, j)` is row `r`'s, whose sum of squares reads the squares at `(r, k)`. -/
theorem lane_idx (r : Fin 8192) (j : Fin 4096) (k : Fin 4096) :
    idx_main_v3 (idx_main_v4 (idx_main_v10 (ix2 r j))) k = ix2 r k :=
  funext fun a => by match a with | ⟨0, _⟩ => rfl | ⟨1, _⟩ => rfl

/-- The weight broadcast to `(r, j)` is its lane `j`. -/
theorem weight_idx (r : Fin 8192) (j : Fin 4096) : idx_main_v12 (idx_main_v13 (ix2 r j)) = ix1 j :=
  funext fun a => by match a with | ⟨0, _⟩ => rfl

/-- The reference's last stage, at the ideal values, is `RowNorm.G` of the three arguments. -/
theorem result_eq (x0 : (⟨S4x8192x4096, .f32⟩ : BufTy).Contents (Elt Ideal)) (x1 : (⟨S8192x4096, .f32⟩ : BufTy).Contents (Elt Ideal))
    (x2 : (⟨S4096, .f32⟩ : BufTy).Contents (Elt Ideal)) :
    val_main_v14 (F := Ideal) x0 x1 x2 = Cert.RowNorm.G x0 x1 x2 := by
  funext i
  obtain ⟨r, j, rfl⟩ : ∃ (r : Fin 8192) (j : Fin 4096), i = ix2 r j := ⟨i 0, i 1, eq_ix2 i⟩
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, val_main_cst_2_apply, Ideal.mulf_def, Ideal.addf_def, Ideal.hostDivf_def,
    Ideal.hostUnary_rsqrt_def, Ideal.ofBits_def, Ideal.ofBits_zero_f32, zero_add, shard_idx, lane_idx, weight_idx]
  rfl

end Cert.ReferenceIdeal.RefRows

end
-- ==== Proof.RowBlock.lean ====
/-
  What one grid point leaves in its output block, entry by entry.

  The body loads a [4, 256, 4096] block of the shards, a [256, 4096] block of the residual and the weight vector, and
  stores one [256, 4096] block. The generated value leg has already read the body's shape casts and broadcasts at an
  index: the stored block is `Value.E3` of the three loads, in which the two lane reductions are kept whole. Here each
  reduction is opened into its sum — over the 4 shards at a fixed (row, lane), and over the 4096 lanes of a fixed row —
  and the entry at block row `q`, lane `j` is recognised as `RowNorm.rowResult` of block row `q`'s data at lane `j`.
-/
import proofs.«182074_j12592844112269_1_alg».proof.Proof.Gen.KernelIdeal.Value
import proofs.«182074_j12592844112269_1_alg».proof.Proof.RowNorm
import Idealize.ShloMosaic.PureOps.Ideal.Laws
import Idealize.ShloMosaic.Lib.ValueIdx

noncomputable section

open scoped BigOperators

namespace Cert.KernelIdeal.RowBlock

open Cert.KernelIdeal Cert.KernelIdeal.Gen Cert.KernelIdeal.Value Idealize.ShloMosaic Idealize.ShloMosaic.ValueIdx

/-- The reduction over the shard axis, at block entry `(q, k)`, is the sum of the four shards' entries there. -/
theorem shardSum_apply (P0 : FVec Ideal S4x256x4096 .f32) (q : Fin 256) (k : Fin 4096) :
    multiReduction .add [0] S256x4096 P0 0x00000000#32 reduces_S4x256x4096_S256x4096 (.inl rfl) rfl (ix2 q k)
      = ∑ p : Fin 4, P0 (ix3 p q k) := by
  refine (Ideal.multiReduction_add_single P0 0x00000000#32 reduces_S4x256x4096_S256x4096 (.inl rfl) rfl (ix2 q k)).trans ?_
  refine Finset.sum_congr rfl fun p _ => congrArg P0 (funext fun a => Fin.ext ?_)
  match a with | ⟨0, _⟩ => rfl | ⟨1, _⟩ => rfl | ⟨2, _⟩ => rfl

/-- The reduction over the lane axis, at block row `q`, is the sum of that row's 4096 entries. -/
theorem laneSum_apply (v : FVec Ideal S256x4096 .f32) (q : Fin 256) :
    multiReduction .add [1] S256 v 0x00000000#32 reduces_S256x4096_S256 (.inl rfl) rfl (ix1 q)
      = ∑ k : Fin 4096, v (ix2 q k) := by
  refine (Ideal.multiReduction_add_single v 0x00000000#32 reduces_S256x4096_S256 (.inl rfl) rfl (ix1 q)).trans ?_
  refine Finset.sum_congr rfl fun k _ => congrArg v (funext fun a => Fin.ext ?_)
  match a with | ⟨0, _⟩ => rfl | ⟨1, _⟩ => rfl

/-- Where the block entry `(q, j)` reads each of the values `Value.E3` is made of: the summed row and the residual at
    `(q, j)` itself, the row's sum of squares at row `q`, the weight at lane `j`. -/
theorem at_entry (q : Fin 256) (j : Fin 4096) : ix3_0 (ix2 q j) = ix2 q j ∧ ix3_1 (ix2 q j) = ix2 q j
    ∧ ix3_2 (ix2 q j) = ix1 q ∧ ix3_3 (ix2 q j) = ix1 j :=
  ⟨funext fun a => by match a with | ⟨0, _⟩ => rfl | ⟨1, _⟩ => rfl,
   funext fun a => by match a with | ⟨0, _⟩ => rfl | ⟨1, _⟩ => rfl,
   funext fun a => by match a with | ⟨0, _⟩ => rfl,
   funext fun a => by match a with | ⟨0, _⟩ => rfl⟩

/-- The four shards of a block added, as the body computes it. -/
abbrev shardSum (P0 : FVec Ideal S4x256x4096 .f32) : FVec Ideal S256x4096 .f32 :=
  multiReduction .add [0] S256x4096 P0 0x00000000#32 reduces_S4x256x4096_S256x4096 (.inl rfl) rfl

/-- The block's summed row: at `(q, k)` the shard sum plus the residual is `RowNorm.summedRow` of block row `q` at lane `k`. -/
theorem summed_apply (P0 : FVec Ideal S4x256x4096 .f32) (P1 : FVec Ideal S256x4096 .f32) (q : Fin 256) (k : Fin 4096) :
    (addf (shardSum P0) P1) (ix2 q k)
      = Cert.RowNorm.summedRow (fun p k => P0 (ix3 p q k)) (fun k => P1 (ix2 q k)) k :=
  congrArg (· + P1 (ix2 q k)) (shardSum_apply P0 q k)

/-- The block's sum of squares at row `q`: the sum over the lanes of the summed row's squares. -/
theorem sumSq_apply (P0 : FVec Ideal S4x256x4096 .f32) (P1 : FVec Ideal S256x4096 .f32) (q : Fin 256) :
    multiReduction .add [1] S256 (mulf (addf (shardSum P0) P1) (addf (shardSum P0) P1)) 0x00000000#32 reduces_S256x4096_S256 (.inl rfl) rfl (ix1 q)
      = ∑ k : Fin 4096, Cert.RowNorm.summedRow (fun p k => P0 (ix3 p q k)) (fun k => P1 (ix2 q k)) k
          * Cert.RowNorm.summedRow (fun p k => P0 (ix3 p q k)) (fun k => P1 (ix2 q k)) k :=
  (laneSum_apply _ q).trans (Finset.sum_congr rfl fun k _ =>
    congrArg₂ (· * ·) (summed_apply P0 P1 q k) (summed_apply P0 P1 q k))

/-- The block at entry `(q, j)`: the row result of block row `q` — its four shard rows, its residual row and the
    weight — at lane `j`. -/
theorem entry_apply (P0 : FVec Ideal S4x256x4096 .f32) (P1 : FVec Ideal S256x4096 .f32) (P2 : FVec Ideal S4096 .f32)
    (q : Fin 256) (j : Fin 4096) :
    E3 (F := Ideal) P0 P1 P2 (ix2 q j)
      = Cert.RowNorm.rowResult (fun p k => P0 (ix3 p q k)) (fun k => P1 (ix2 q k)) (fun k => P2 (ix1 k)) j := by
  obtain ⟨i0, i1, i2, i3⟩ := at_entry q j
  simp only [E3, i0, i1, i2, i3, Ideal.mulf_def, Ideal.addf_def, Ideal.divf_def, Ideal.rsqrt_def]
  exact congrArg₂ (· * ·) (congrArg₂ (· * ·) (summed_apply P0 P1 q j)
    (congrArg (fun s => Ideal.rsqrt (Ideal.div s (Ideal.ofBits .f32 0x45800000#32) + Ideal.ofBits .f32 0x358637BD#32))
      (sumSq_apply P0 P1 q))) rfl

/-- THE BLOCK, entry by entry: at block index `y` the stored value is the row result of block row `y 0` at lane `y 1`. -/
theorem block_apply (P0 : FVec Ideal S4x256x4096 .f32) (P1 : FVec Ideal S256x4096 .f32) (P2 : FVec Ideal S4096 .f32) (y : S256x4096.Idx) :
    E3 (F := Ideal) P0 P1 P2 y
      = Cert.RowNorm.rowResult (fun p k => P0 (ix3 p (y 0) k)) (fun k => P1 (ix2 (y 0) k)) (fun k => P2 (ix1 k)) (y 1) := by
  obtain ⟨q, j, rfl⟩ : ∃ (q : Fin 256) (j : Fin 4096), y = ix2 q j := ⟨y 0, y 1, eq_ix2 y⟩
  exact entry_apply P0 P1 P2 q j

end Cert.KernelIdeal.RowBlock

end
-- ==== Proof.RowArray.lean ====
/-
  From the blocks to the whole result array, and the kernel's run.

  The grid has 32 points. At point `t` the shard window holds rows `256 t … 256 t + 255` of all four shards, the residual
  window the same rows of the residual, the weight window the whole weight vector, and the output window writes back rows
  `256 t … 256 t + 255` of the result. Block row `q` at point `t` is therefore array row `256 t + q`, lane for lane, so what
  the point writes back is block `t` of `RowNorm.G` of the argument arrays (a row's result depends on that row only); the
  32 row blocks cover every index of the [8192, 4096] result (index `(r, j)` lies in block `r / 256`), so after the run the
  result array is `RowNorm.G` of the arguments.
-/
import proofs.«182074_j12592844112269_1_alg».proof.Proof.Gen.KernelIdeal.Value
import proofs.«182074_j12592844112269_1_alg».proof.Proof.RowNorm
import proofs.«182074_j12592844112269_1_alg».proof.Proof.RowBlock
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.RowArray

open Cert.KernelIdeal Cert.KernelIdeal.Gen Cert.KernelIdeal.Value Idealize.ShloMosaic.ValueIdx

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 32 points: the shard, residual and output windows step along the row axis
    with the point and stay at block 0 on every other axis; the weight window stays at block 0. -/
theorem block_index : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The shard block at point `t`, entry `x`, is the shard array at the same shard and lane, row `256 t + (x 1)`. -/
theorem shards_block (c : Dev nD) (t : Fin cfg0.N) (x : S4x256x4096.Idx) (k : S4x8192x4096.Idx)
    (h0 : (k 0).val = (x 0).val) (h1 : (k 1).val = 256 * t.val + (x 1).val) (h2 : (k 2).val = (x 2).val) :
    (iblk m c 0 t : Vec Ideal S4x256x4096 .f32) x = (V m c main_arg0 : S4x8192x4096.Idx → Elt Ideal .f32) k := by
  obtain ⟨e0, e1, e2, -⟩ := block_index t
  unfold iblk
  rw [View.read_apply]
  show V m c main_arg0 _ = V m c main_arg0 _
  congr 1
  funext a
  apply Fin.ext
  match a with
  | ⟨0, _⟩ => show win0_0.index t 0 * 4 + 1 * (x 0).val = (k 0).val; rw [e0, h0]; omega
  | ⟨1, _⟩ => show win0_0.index t 1 * 256 + 1 * (x 1).val = (k 1).val; rw [e1, h1]; omega
  | ⟨2, _⟩ => show win0_0.index t 2 * 4096 + 1 * (x 2).val = (k 2).val; rw [e2, h2]; omega

/-- The residual block at point `t`, entry `x`, is the residual array at row `256 t + (x 0)`, the same lane. -/
theorem residual_block (c : Dev nD) (t : Fin cfg0.N) (x : S256x4096.Idx) (k : S8192x4096.Idx)
    (h0 : (k 0).val = 256 * t.val + (x 0).val) (h1 : (k 1).val = (x 1).val) :
    (iblk m c 1 t : Vec Ideal S256x4096 .f32) x = (V m c main_arg1 : S8192x4096.Idx → Elt Ideal .f32) k := by
  obtain ⟨-, -, -, e0, e1, -⟩ := block_index t
  unfold iblk
  rw [View.read_apply]
  show V m c main_arg1 _ = V m c main_arg1 _
  congr 1
  funext a
  apply Fin.ext
  match a with
  | ⟨0, _⟩ => show win0_1.index t 0 * 256 + 1 * (x 0).val = (k 0).val; rw [e0, h0]; omega
  | ⟨1, _⟩ => show win0_1.index t 1 * 4096 + 1 * (x 1).val = (k 1).val; rw [e1, h1]; omega

/-- The weight block at every point is the weight vector. -/
theorem weight_block (c : Dev nD) (t : Fin cfg0.N) (x : S4096.Idx) :
    (iblk m c 2 t : Vec Ideal S4096 .f32) x = (V m c main_arg2 : S4096.Idx → Elt Ideal .f32) x := by
  obtain ⟨-, -, -, -, -, e0, -⟩ := block_index t
  unfold iblk
  rw [View.read_apply]
  show V m c main_arg2 _ = V m c main_arg2 _
  congr 1
  funext a
  apply Fin.ext
  match a with
  | ⟨0, _⟩ => show win0_2.index t 0 * 4096 + 1 * (x 0).val = (x 0).val; rw [e0]; omega

/-- Entry `y` of the output block at point `t` sits at array row `256 t + (y 0)`, lane `y 1`. -/
theorem out_row (t : Fin cfg0.N) (y : S256x4096.Idx) :
    ((((cfg0.win 3).blk t).view.emb y) 0).val = 256 * t.val + (y 0).val := by
  obtain ⟨-, -, -, -, -, -, e0, -⟩ := block_index t
  show win0_3.index t 0 * 256 + 1 * (y 0).val = _
  rw [e0]; omega
theorem out_lane (t : Fin cfg0.N) (y : S256x4096.Idx) :
    ((((cfg0.win 3).blk t).view.emb y) 1).val = (y 1).val := by
  obtain ⟨-, -, -, -, -, -, -, e1⟩ := block_index t
  show win0_3.index t 1 * 4096 + 1 * (y 1).val = _
  rw [e1]; omega

/-- WHAT POINT `t` WRITES BACK is block `t` of `RowNorm.G` of the argument arrays as the region finds them: the block's
    row `q` is the row result of the block's own row `q`, which is array row `256 t + q`. -/
theorem flushed_eq (c : Dev nD) (t : Fin cfg0.N) :
    (dats m 0 c).flushed 3 t
      = ((cfg0.win 3).blk t).view.read (Elt Ideal) (Cert.RowNorm.G (V m c main_arg0) (V m c main_arg1) (V m c main_arg2)) := by
  rw [Value.flushed3]
  unfold out0_3
  funext y
  refine (Value.canon3_eq (F := Ideal) (View.ld (iblk m c 0 t) r0_0) (View.ld (iblk m c 1 t) r0_1) (View.ld (iblk m c 2 t) r0_2) y).trans ?_
  simp only [View.ld_unit_zero (S := S4x256x4096) zero3, View.ld_unit_zero (S := S256x4096) zero2, View.ld_unit_zero (S := S4096) zero1]
  refine (Cert.KernelIdeal.RowBlock.block_apply (iblk m c 0 t) (iblk m c 1 t) (iblk m c 2 t) y).trans ?_
  show _ = Cert.RowNorm.G (V m c main_arg0) (V m c main_arg1) (V m c main_arg2) (((cfg0.win 3).blk t).view.emb y)
  unfold Cert.RowNorm.G
  refine Cert.RowNorm.rowResult_congr (fun p k => ?_) (fun k => ?_) (fun k => ?_) ?_
  · exact shards_block m c t _ _ rfl (out_row t y) rfl
  · exact residual_block m c t _ _ (out_row t y) rfl
  · exact weight_block m c t _
  · exact Fin.ext (out_lane t y).symm

/-- An index of the result array is in point `t`'s block iff each coordinate is in the block's range on its axis. -/
theorem mem_block (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- Every index `(r, j)` of the result lies in the block of point `r / 256`, which is written back. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have ht : (i 0).val / 256 < cfg0.N := by rw [hN]; omega
  obtain ⟨-, -, -, -, -, -, e0, e1⟩ := block_index ⟨(i 0).val / 256, ht⟩
  refine ⟨⟨(i 0).val / 256, ht⟩, flush0_3 _, ?_⟩
  rw [mem_block]
  intro a
  match a with
  | ⟨0, _⟩ =>
    show win0_3.index ⟨(i 0).val / 256, ht⟩ 0 * 256 ≤ (i 0).val ∧ (i 0).val < win0_3.index ⟨(i 0).val / 256, ht⟩ 0 * 256 + 256
    rw [e0]; show (i 0).val / 256 * 256 ≤ (i 0).val ∧ (i 0).val < (i 0).val / 256 * 256 + 256; omega
  | ⟨1, _⟩ =>
    show win0_3.index ⟨(i 0).val / 256, ht⟩ 1 * 4096 ≤ (i 1).val ∧ (i 1).val < win0_3.index ⟨(i 0).val / 256, ht⟩ 1 * 4096 + 4096
    rw [e1]; omega

/-- THE RESULT ARRAY after the run is `RowNorm.G` of the argument arrays. -/
theorem final (c : Dev nD) :
    (dats m 0 c).arrAt 3 cfg0.N = Cert.RowNorm.G (V m c main_arg0) (V m c main_arg1) (V m c main_arg2) :=
  (dats m 0 c).arrAt_eq_of_cover 3 (Cert.RowNorm.G (V m c main_arg0) (V m c main_arg1) (V m c main_arg2))
    (fun t _ => flushed_eq m c t) covered

/-- The kernel's run, read: the result array at `RowNorm.G` of the arguments, the arguments unchanged. -/
theorem run : θ_run defs (onTc (τ := τ) (main (F := Ideal))) ⟨m, fun _ => 0, ρ⟩ fun r => ∀ c : Dev nD,
      r.2.mem ((c : Thread nD τ).loc main_v0)
        = Cert.RowNorm.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowArray

end
-- ==== Proof.lean ====
/-
  The kernel and the reference compute one function: a fused all-reduce, residual add and RMS normalisation.

  Over the extended reals both programs add the four tensor-parallel shards `hs[p, r, ·]` and the residual row into
  `x[r, ·]`, and return `x[r, j] · (∑ k, x[r, k]² / 4096 + ε)^(-1/2) · w[j]`. The kernel does it 256 rows at a time over a grid
  of 32 points, adding shards and lanes with lane reductions; the reference does it on whole arrays with two `reduce`s. A
  sum is a sum whatever its order, both divide by the value of the same pattern (4096), add the value of the same pattern
  (ε), and take the same reciprocal square root, so nothing about the inputs' finiteness is used: the two results are
  equal at every extended-real input, entry by entry.

  `RowNorm.G` is that function of the three argument arrays. The kernel's result array ends at it (`RowArray.run`: each
  point writes back a block of `G`, and the 32 row blocks cover the array), and so does the reference's (`RefRows.result_eq`
  over its run). The frames are the programs' own runs with the result forgotten, and the kernel is idealized with no
  rewrite, so there is nothing to preserve.
-/
import proofs.«182074_j12592844112269_1_alg».proof.Defs
import proofs.«182074_j12592844112269_1_alg».proof.Proof.Gen.Kernel
import proofs.«182074_j12592844112269_1_alg».proof.Proof.Gen.Kernel.Skeleton
import proofs.«182074_j12592844112269_1_alg».proof.Proof.Gen.Kernel.Launch
import proofs.«182074_j12592844112269_1_alg».proof.Proof.Gen.Kernel.Points
import proofs.«182074_j12592844112269_1_alg».proof.Proof.Gen.Kernel.Frame
import proofs.«182074_j12592844112269_1_alg».proof.Proof.Gen.KernelIdeal
import proofs.«182074_j12592844112269_1_alg».proof.Proof.Gen.KernelIdeal.Skeleton
import proofs.«182074_j12592844112269_1_alg».proof.Proof.Gen.KernelIdeal.Launch
import proofs.«182074_j12592844112269_1_alg».proof.Proof.Gen.KernelIdeal.Points
import proofs.«182074_j12592844112269_1_alg».proof.Proof.Gen.KernelIdeal.Frame
import proofs.«182074_j12592844112269_1_alg».proof.Proof.Gen.ReferenceIdeal
import proofs.«182074_j12592844112269_1_alg».proof.Proof.Gen.Pre_finite_inputs
import proofs.«182074_j12592844112269_1_alg».proof.Proof.Gen.KernelIdeal.Value
import proofs.«182074_j12592844112269_1_alg».proof.Proof.Gen.ReferenceIdeal.Run
import proofs.«182074_j12592844112269_1_alg».proof.Proof.Gen.ReferenceIdeal.Read
import proofs.«182074_j12592844112269_1_alg».proof.Proof.RowNorm
import proofs.«182074_j12592844112269_1_alg».proof.Proof.RefRows
import proofs.«182074_j12592844112269_1_alg».proof.Proof.RowBlock
import proofs.«182074_j12592844112269_1_alg».proof.Proof.RowArray
import Idealize.ShloMosaic.Adequacy
import Idealize.ShloMosaic.Init

noncomputable section

namespace Cert.Proof

open Idealize.ShloMosaic Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the three arguments both programs end with the result array at `RowNorm.G` of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.RowArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefRows.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
